-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S40x128 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S40x128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S128x40 : Shape := ⟨2, ![128, 40]⟩
abbrev S1x128 : Shape := ⟨2, ![1, 128]⟩
abbrev S1x40 : Shape := ⟨2, ![1, 40]⟩
abbrev S1600000x128 : Shape := ⟨2, ![1600000, 128]⟩
abbrev S100000x1 : Shape := ⟨2, ![100000, 1]⟩
abbrev S5000x128 : Shape := ⟨2, ![5000, 128]⟩
abbrev S100000x40 : Shape := ⟨2, ![100000, 40]⟩
abbrev S5000x40 : Shape := ⟨2, ![5000, 40]⟩

abbrev nBuf : Space → Nat
  | .hbm => 69
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x40, .f32⟩
  | .hbm, ⟨31, _⟩ => ⟨S1x128, .f32⟩
  | .hbm, ⟨32, _⟩ => ⟨S1x128, .f32⟩
  | .hbm, ⟨33, _⟩ => ⟨S1x40, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  transposes_S40x128_S128x40_1_0 : S40x128.Transposes [1, 0] S128x40
  shapeCasts_S128_S1x128 : S128.ShapeCasts S1x128
  shapeCasts_S40_S1x40 : S40.ShapeCasts S1x40
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S128x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S128x40, .f32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The mathematics both programs compute, index by index on the extended reals.

  A SAGE layer takes the aggregated neighbour features `a`, the node features `x`, two weight matrices already
  transposed to [in, out] layout, and a bias row, and returns at node `r`, output feature `q`

      max ( Σ_k a[r,k]·wl[k,q]  +  Σ_k x[r,k]·wr[k,q]  +  b[q] , 0 ).

  The classifier is one matrix product plus a bias row.  The two programs differ, per layer, only in where the
  bias enters a three-term sum; on the extended reals addition is commutative and associative without any
  finiteness assumption, so the two groupings agree (`add3_comm`).
-/
import Idealize.ShloMosaic.PureOps.Ideal
import Idealize.ShloMosaic.Lib.ValueIdx

noncomputable section

namespace Cert.Sage

open Idealize.ShloMosaic Idealize.ShloMosaic.ValueIdx

/-- Node-by-feature arrays, the two weight layouts, and the bias rows. -/
abbrev SNx128 : Shape := ⟨2, ![100000, 128]⟩
abbrev SNx40 : Shape := ⟨2, ![100000, 40]⟩
abbrev SW : Shape := ⟨2, ![128, 128]⟩
abbrev SWc : Shape := ⟨2, ![128, 40]⟩
abbrev SB : Shape := ⟨1, ![128]⟩
abbrev SBc : Shape := ⟨1, ![40]⟩

/-- The word of the float zero, kept as a pattern: both programs splat the same word. -/
abbrev zeroW : EReal := Ideal.ofBits .f32 0x00000000#32

/-- One entry of a SAGE layer: node `r`, output feature `q`. -/
def denseAt (a x : SNx128.Idx → EReal) (wl : SW.Idx → EReal) (b : SB.Idx → EReal) (wr : SW.Idx → EReal)
    (r : Fin 100000) (q : Fin 128) : EReal :=
  max ((∑ k : Fin 128, a (ix2 r k) * wl (ix2 k q)) + (∑ k : Fin 128, x (ix2 r k) * wr (ix2 k q)) + b (ix1 q)) zeroW

/-- A SAGE layer as one whole-array function. -/
def dense (a x : SNx128.Idx → EReal) (wl : SW.Idx → EReal) (b : SB.Idx → EReal) (wr : SW.Idx → EReal) :
    SNx128.Idx → EReal :=
  fun i => denseAt a x wl b wr ⟨(i 0).val, idx2_lt0 i⟩ ⟨(i 1).val, idx2_lt1 i⟩

/-- One entry of the classifier: node `r`, class `q`. -/
def clsAt (h : SNx128.Idx → EReal) (w : SWc.Idx → EReal) (b : SBc.Idx → EReal) (r : Fin 100000) (q : Fin 40) : EReal :=
  (∑ k : Fin 128, h (ix2 r k) * w (ix2 k q)) + b (ix1 q)

/-- The classifier as one whole-array function. -/
def cls (h : SNx128.Idx → EReal) (w : SWc.Idx → EReal) (b : SBc.Idx → EReal) : SNx40.Idx → EReal :=
  fun i => clsAt h w b ⟨(i 0).val, idx2_lt0 i⟩ ⟨(i 1).val, idx2_lt1 i⟩

/-- A bias kept as a one-row matrix, read as a row vector. -/
def row128 (b : (⟨2, ![1, 128]⟩ : Shape).Idx → EReal) : SB.Idx → EReal := fun j => b (ix2 (0 : Fin 1) ⟨(j 0).val, (j 0).isLt⟩)
def row40 (b : (⟨2, ![1, 40]⟩ : Shape).Idx → EReal) : SBc.Idx → EReal := fun j => b (ix2 (0 : Fin 1) ⟨(j 0).val, (j 0).isLt⟩)

theorem row128_apply (b : (⟨2, ![1, 128]⟩ : Shape).Idx → EReal) (q : Fin 128) : row128 b (ix1 q) = b (ix2 (0 : Fin 1) q) := rfl
theorem row40_apply (b : (⟨2, ![1, 40]⟩ : Shape).Idx → EReal) (q : Fin 40) : row40 b (ix1 q) = b (ix2 (0 : Fin 1) q) := rfl

/-- Moving the bias from the end of a three-term sum to its middle: commutativity and associativity of
    addition on the extended reals, which hold at the infinities too. -/
theorem add3_comm (A X B : EReal) : A + B + X = A + X + B := add_right_comm A B X

theorem dense_apply (a x : SNx128.Idx → EReal) (wl : SW.Idx → EReal) (b : SB.Idx → EReal) (wr : SW.Idx → EReal)
    (r : Fin 100000) (q : Fin 128) : dense a x wl b wr (ix2 r q) = denseAt a x wl b wr r q := rfl

theorem cls_apply (h : SNx128.Idx → EReal) (w : SWc.Idx → EReal) (b : SBc.Idx → EReal) (r : Fin 100000) (q : Fin 40) :
    cls h w b (ix2 r q) = clsAt h w b r q := rfl

end Cert.Sage

end
-- ==== Proof.KHost.lean ====
/-
  The kernel program's host stretches, read.  Between the launch and the first pallas_call, and between the first
  and the second, the kernel's @main runs the same host operations as the reference: the degree by a scatter-add of
  ones, its clamped reciprocal, the source indices wrapped into range, the gather of source rows, their
  scatter-add into target rows, the scaling by the reciprocal degree; beside them the five weight transposes and
  the three bias reshapes.  So every array a pallas_call finds is a stage of the reference applied to the launch
  arguments, and the aggregation is carried as that stage, never opened.
-/
import proofs.«152654_j74345883894183_1_alg».proof.Proof.Spec
import proofs.«152654_j74345883894183_1_alg».proof.Proof.Gen.KernelIdeal.Frame
import proofs.«152654_j74345883894183_1_alg».proof.Proof.Gen.ReferenceIdeal.Read
import Idealize.ShloMosaic.Lib.StableHlo.Run
import Idealize.ShloMosaic.Lib.ValueLayout
import Idealize.ShloMosaic.PureOps.Ideal

set_option maxRecDepth 16384

noncomputable section

namespace Cert.Sage.K

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen
open Cert.ReferenceIdeal.Read (val_main_v1 val_main_v3 val_main_v11 val_main_v24 val_main_v25 val_main_v30 val_main_v33
  val_main_v46 val_main_v47 val_main_v52 val_main_v56)

variable (m : (ℓ : Loc nD τ sig) → Buf (Elt Ideal) ℓ) (ρ : Dev nD → PrngReg) (c : Dev nD)

/-! ## The launch arguments -/

abbrev a0 : S100000x128.Idx → EReal := m ((c : Thread nD τ).loc main_arg0)
abbrev a1 : S2x1600000.Idx → BitVec 32 := m ((c : Thread nD τ).loc main_arg1)
abbrev a2 : S128x128.Idx → EReal := m ((c : Thread nD τ).loc main_arg2)
abbrev a3 : S128.Idx → EReal := m ((c : Thread nD τ).loc main_arg3)
abbrev a4 : S128x128.Idx → EReal := m ((c : Thread nD τ).loc main_arg4)
abbrev a5 : S128x128.Idx → EReal := m ((c : Thread nD τ).loc main_arg5)
abbrev a6 : S128.Idx → EReal := m ((c : Thread nD τ).loc main_arg6)
abbrev a7 : S128x128.Idx → EReal := m ((c : Thread nD τ).loc main_arg7)
abbrev a8 : S40x128.Idx → EReal := m ((c : Thread nD τ).loc main_arg8)
abbrev a9 : S40.Idx → EReal := m ((c : Thread nD τ).loc main_arg9)

/-! ## Before the first pallas_call -/

/-- The node features reach the first call untouched. -/
theorem s0_arg0 : (V1 m ρ c main_arg0 : S100000x128.Idx → EReal) = a0 m c := by
  show StableHlo.after hostOps0 (W0 m ρ c) (Proc.devRef .tc main_arg0) = _
  after_results_simp <;> rfl

/-- The mean-aggregated features are the reference's aggregation stage of the same two arguments. -/
theorem s0_v32 : (V1 m ρ c main_v32 : S100000x128.Idx → EReal) = val_main_v24 (F := Ideal) (a0 m c) (a1 m c) := by
  show StableHlo.after hostOps0 (W0 m ρ c) (Proc.devRef .tc main_v32) = _
  after_results_simp <;> rfl

theorem s0_v12 : (V1 m ρ c main_v12 : S128x128.Idx → EReal) = val_main_v25 (F := Ideal) (a2 m c) := by
  show StableHlo.after hostOps0 (W0 m ρ c) (Proc.devRef .tc main_v12) = _
  after_results_simp <;> rfl

theorem s0_v13 : (V1 m ρ c main_v13 : S128x128.Idx → EReal) = val_main_v30 (F := Ideal) (a4 m c) := by
  show StableHlo.after hostOps0 (W0 m ρ c) (Proc.devRef .tc main_v13) = _
  after_results_simp <;> rfl

/-- A bias reshaped to one row, read back as a row, is the bias. -/
theorem row128_reshape (b : S128.Idx → EReal) :
    Cert.Sage.row128 (shapeCast S1x128 b shapeCasts_S128_S1x128) = b := by
  funext j
  obtain ⟨q, rfl⟩ : ∃ q : Fin 128, j = ix1 q := ⟨j 0, eq_ix1 j⟩
  rw [Cert.Sage.row128_apply]
  exact shapeCast_a_1a_apply b _ 0 q

theorem row40_reshape (b : S40.Idx → EReal) :
    Cert.Sage.row40 (shapeCast S1x40 b shapeCasts_S40_S1x40) = b := by
  funext j
  obtain ⟨q, rfl⟩ : ∃ q : Fin 40, j = ix1 q := ⟨j 0, eq_ix1 j⟩
  rw [Cert.Sage.row40_apply]
  exact shapeCast_a_1a_apply b _ 0 q

theorem s0_v17 : Cert.Sage.row128 (V1 m ρ c main_v17) = a3 m c := by
  have e : (V1 m ρ c main_v17 : S1x128.Idx → EReal) = shapeCast S1x128 (a3 m c) shapeCasts_S128_S1x128 := by
    show StableHlo.after hostOps0 (W0 m ρ c) (Proc.devRef .tc main_v17) = _
    after_results_simp <;> rfl
  rw [e]; exact row128_reshape _

/-! ## What the first stretch leaves for later: carried across the first pallas_call unchanged -/

theorem w2_v1 : (W2 m ρ c (Proc.devRef .tc main_v1) : S1600000.Idx → BitVec 32) = val_main_v1 (F := Ideal) (a1 m c) :=
  (W2_of_ne m ρ c main_v1 (by decide)).trans (by
    show StableHlo.after hostOps0 (W0 m ρ c) (Proc.devRef .tc main_v1) = _
    after_results_simp <;> rfl)

theorem w2_v3 : (W2 m ρ c (Proc.devRef .tc main_v3) : S1600000.Idx → BitVec 32) = val_main_v3 (F := Ideal) (a1 m c) :=
  (W2_of_ne m ρ c main_v3 (by decide)).trans (by
    show StableHlo.after hostOps0 (W0 m ρ c) (Proc.devRef .tc main_v3) = _
    after_results_simp <;> rfl)

theorem w2_v11 : (W2 m ρ c (Proc.devRef .tc main_v11) : S100000.Idx → EReal) = val_main_v11 (F := Ideal) (a1 m c) :=
  (W2_of_ne m ρ c main_v11 (by decide)).trans (by
    show StableHlo.after hostOps0 (W0 m ρ c) (Proc.devRef .tc main_v11) = _
    after_results_simp <;> rfl)

theorem w2_v14 : (W2 m ρ c (Proc.devRef .tc main_v14) : S128x128.Idx → EReal) = val_main_v47 (F := Ideal) (a5 m c) :=
  (W2_of_ne m ρ c main_v14 (by decide)).trans (by
    show StableHlo.after hostOps0 (W0 m ρ c) (Proc.devRef .tc main_v14) = _
    after_results_simp <;> rfl)

theorem w2_v15 : (W2 m ρ c (Proc.devRef .tc main_v15) : S128x128.Idx → EReal) = val_main_v52 (F := Ideal) (a7 m c) :=
  (W2_of_ne m ρ c main_v15 (by decide)).trans (by
    show StableHlo.after hostOps0 (W0 m ρ c) (Proc.devRef .tc main_v15) = _
    after_results_simp <;> rfl)

theorem w2_v16 : (W2 m ρ c (Proc.devRef .tc main_v16) : S128x40.Idx → EReal) = val_main_v56 (F := Ideal) (a8 m c) :=
  (W2_of_ne m ρ c main_v16 (by decide)).trans (by
    show StableHlo.after hostOps0 (W0 m ρ c) (Proc.devRef .tc main_v16) = _
    after_results_simp <;> rfl)

theorem w2_v18 : (W2 m ρ c (Proc.devRef .tc main_v18) : S1x128.Idx → EReal) = shapeCast S1x128 (a6 m c) shapeCasts_S128_S1x128 :=
  (W2_of_ne m ρ c main_v18 (by decide)).trans (by
    show StableHlo.after hostOps0 (W0 m ρ c) (Proc.devRef .tc main_v18) = _
    after_results_simp <;> rfl)

theorem w2_v19 : (W2 m ρ c (Proc.devRef .tc main_v19) : S1x40.Idx → EReal) = shapeCast S1x40 (a9 m c) shapeCasts_S40_S1x40 :=
  (W2_of_ne m ρ c main_v19 (by decide)).trans (by
    show StableHlo.after hostOps0 (W0 m ρ c) (Proc.devRef .tc main_v19) = _
    after_results_simp <;> rfl)

end Cert.Sage.K

end
-- ==== Proof.KPay.lean ====
/-
  What each kernel body stores, read at one entry of the block, on the extended reals.
-/
import proofs.«152654_j74345883894183_1_alg».proof.Proof.Spec
import proofs.«152654_j74345883894183_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Sage.K

open Idealize.ShloMosaic Idealize.ShloMosaic.ValueIdx Cert.KernelIdeal Cert.KernelIdeal.Gen

/-! ## The square product: a [5000,128] block times a [128,128] weight

The operand indices of the product at output entry `i` and contraction position `c`, one axis at a time. -/

theorem lhsW_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsW_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhsW_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhsW_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at entry `(p, q)`, is the row-by-column sum over the 128 contracted positions. -/
theorem matmulW_apply (a : FVec Ideal S5000x128 .bf16) (w : FVec Ideal S128x128 .bf16) (p : Fin 5000) (q : Fin 128) :
    FloatOps.matmul dot_S5000x128_S128x128_S5000x128_1_0_0_1_n_n none a w (constant (F := Ideal) S5000x128 .f32 0x00000000#32) (ix2 p q)
      = ∑ k : Fin 128, a (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsW_0 _ _
    | ⟨1, _⟩ => exact (lhsW_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsW_0 _ _).trans hk
    | ⟨1, _⟩ => exact rhsW_1 _ _)
  rw [el, er]

/-! ## The classifier's product: a [5000,128] block times a [128,40] weight -/

theorem lhsC_0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhsC_1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c
theorem rhsC_0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c
theorem rhsC_1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The same sum for the [128,40] weight. -/
theorem matmulC_apply (a : FVec Ideal S5000x128 .bf16) (w : FVec Ideal S128x40 .bf16) (p : Fin 5000) (q : Fin 40) :
    FloatOps.matmul dot_S5000x128_S128x40_S5000x40_1_0_0_1_n_n none a w (constant (F := Ideal) S5000x40 .f32 0x00000000#32) (ix2 p q)
      = ∑ k : Fin 128, a (ix2 p k) * w (ix2 k q) := by
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun a => Fin.ext (by
    match a with
    | ⟨0, _⟩ => exact lhsC_0 _ _
    | ⟨1, _⟩ => exact (lhsC_1 _ _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The three bodies at one entry -/

theorem k0_pay1_apply (v0 v3 : Vec Ideal S5000x128 .f32) (v5 v8 : Vec Ideal S128x128 .f32) (v14 : Vec Ideal S1x128 .f32)
    (p : Fin 5000) (q : Fin 128) :
    k0_pay1 (F := Ideal) v0 v3 v5 v8 v14 (ix2 p q)
      = max ((∑ k : Fin 128, v0 (ix2 p k) * v5 (ix2 k q)) + (∑ k : Fin 128, v3 (ix2 p k) * v8 (ix2 k q))
              + v14 (ix2 (0 : Fin 1) q)) Cert.Sage.zeroW := by
  unfold k0_pay1
  simp only [shapeCast_self]
  show max ((FloatOps.matmul dot_S5000x128_S128x128_S5000x128_1_0_0_1_n_n none _ _ (constant (F := Ideal) S5000x128 .f32 0x00000000#32) (ix2 p q)
      + FloatOps.matmul dot_S5000x128_S128x128_S5000x128_1_0_0_1_n_n none _ _ (constant (F := Ideal) S5000x128 .f32 0x00000000#32) (ix2 p q))
      + broadcastTo S5000x128 v14 broadcasts_S1x128_S5000x128 (ix2 p q)) _ = _
  rw [matmulW_apply, matmulW_apply, broadcastTo_1b_ab_apply]
  rfl

theorem k1_pay1_apply (v0 v3 : Vec Ideal S5000x128 .f32) (v6 v9 : Vec Ideal S128x128 .f32) (v15 : Vec Ideal S1x128 .f32)
    (p : Fin 5000) (q : Fin 128) :
    k1_pay1 (F := Ideal) v0 v3 v6 v9 v15 (ix2 p q)
      = max ((∑ k : Fin 128, v0 (ix2 p k) * v6 (ix2 k q)) + (∑ k : Fin 128, v3 (ix2 p k) * v9 (ix2 k q))
              + v15 (ix2 (0 : Fin 1) q)) Cert.Sage.zeroW := by
  unfold k1_pay1
  simp only [shapeCast_self]
  show max ((FloatOps.matmul dot_S5000x128_S128x128_S5000x128_1_0_0_1_n_n none _ _ (constant (F := Ideal) S5000x128 .f32 0x00000000#32) (ix2 p q)
      + FloatOps.matmul dot_S5000x128_S128x128_S5000x128_1_0_0_1_n_n none _ _ (constant (F := Ideal) S5000x128 .f32 0x00000000#32) (ix2 p q))
      + broadcastTo S5000x128 v15 broadcasts_S1x128_S5000x128 (ix2 p q)) _ = _
  rw [matmulW_apply, matmulW_apply, broadcastTo_1b_ab_apply]
  rfl

theorem k2_pay1_apply (v0 : Vec Ideal S5000x128 .f32) (v3 : Vec Ideal S128x40 .f32) (v7 : Vec Ideal S1x40 .f32)
    (p : Fin 5000) (q : Fin 40) :
    k2_pay1 (F := Ideal) v0 v3 v7 (ix2 p q)
      = (∑ k : Fin 128, v0 (ix2 p k) * v3 (ix2 k q)) + v7 (ix2 (0 : Fin 1) q) := by
  unfold k2_pay1
  simp only [shapeCast_self]
  show FloatOps.matmul dot_S5000x128_S128x40_S5000x40_1_0_0_1_n_n none _ _ (constant (F := Ideal) S5000x40 .f32 0x00000000#32) (ix2 p q)
      + broadcastTo S5000x40 v7 broadcasts_S1x40_S5000x40 (ix2 p q) = _
  rw [matmulC_apply, broadcastTo_1b_ab_apply]
  rfl

end Cert.Sage.K

end
-- ==== Proof.KRegion0.lean ====
/-
  Each pallas_call's output array after its run, as one whole-array function of the arrays the call finds.
-/
import proofs.«152654_j74345883894183_1_alg».proof.Proof.Spec
import proofs.«152654_j74345883894183_1_alg».proof.Proof.KPay
import proofs.«152654_j74345883894183_1_alg».proof.Proof.Gen.KernelIdeal.Frame
import Idealize.ShloMosaic.Lib.Pipeline.Value

set_option maxRecDepth 16384

noncomputable section

namespace Cert.Sage.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-buffer rectangle, spelt as a constant function. -/
theorem zeros2_r0 : (![0, 0] : Fin 2 → Nat) = fun _ => 0 := funext fun a => by fin_cases a <;> rfl

/-- The block index maps over the 20 grid points: the two row windows and the output move with the point along
    the rows, the weight and bias windows stay at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a block's payload is the layer's entry at array row `r`, when the two row blocks hold rows `r` of
    their arrays at block row `p` and the weight and bias blocks hold their whole arrays. -/
theorem pay_entry0 (a x : SNx128.Idx → EReal) (wl wr : SW.Idx → EReal) (b : S1x128.Idx → EReal)
    (v0 v3 : Vec Ideal S5000x128 .f32) (v5 v8 : Vec Ideal S128x128 .f32) (v14 : Vec Ideal S1x128 .f32)
    (p : Fin 5000) (q : Fin 128) (r : Fin 100000)
    (h0 : ∀ k : Fin 128, v0 (ix2 p k) = a (ix2 r k))
    (h3 : ∀ k : Fin 128, v3 (ix2 p k) = x (ix2 r k))
    (h5 : ∀ k : Fin 128, v5 (ix2 k q) = wl (ix2 k q))
    (h8 : ∀ k : Fin 128, v8 (ix2 k q) = wr (ix2 k q))
    (h14 : v14 (ix2 (0 : Fin 1) q) = b (ix2 (0 : Fin 1) q)) :
    k0_pay1 (F := Ideal) v0 v3 v5 v8 v14 (ix2 p q) = Cert.Sage.dense a x wl (Cert.Sage.row128 b) wr (ix2 r q) := by
  rw [k0_pay1_apply, Cert.Sage.dense_apply]
  unfold Cert.Sage.denseAt
  rw [Cert.Sage.row128_apply, h14]
  congr 2
  · congr 1
    · exact Finset.sum_congr rfl fun k _ => by rw [h0 k, h5 k]
    · exact Finset.sum_congr rfl fun k _ => by rw [h3 k, h8 k]

/-- WHAT POINT `t` WRITES BACK is block `t` of the layer of the arrays the call finds. -/
theorem flushed0_eq (c : Dev nD) (t : Fin cfg0.N) :
    (dat0 (F := Ideal) V c).flushed 5 t
      = ((cfg0.win 5).blk t).view.read (Elt Ideal)
          (Cert.Sage.dense (V c main_v32) (V c main_arg0) (V c main_v12) (Cert.Sage.row128 (V c main_v17)) (V c main_v13)) := by
  show (cfg0.win 5).cut (grid0.coords t) ((dat0 V c).after 5 t) = _
  rw [after0_5]
  unfold out0_5
  rw [View.canon_unit_zero zeros2_r0]
  simp only [View.ld_unit_zero (S := S5000x128) zeros2_r0, View.ld_unit_zero (S := S128x128) zeros2_r0, View.ld_unit_zero (S := S1x128) zeros2_r0]
  funext j
  obtain ⟨p, q, rfl⟩ : ∃ (p : Fin 5000) (q : Fin 128), j = ix2 p q := ⟨j 0, j 1, eq_ix2 j⟩
  obtain ⟨a0, a1, x0, x1, l0, l1, b0, b1, r0, r1, o0, o1⟩ := index_maps0 t
  have hN : cfg0.N = 20 := N_0
  have ht : t.val < 20 := hN ▸ t.isLt
  have hrow : t.val * 5000 + p.val < 100000 := by have := p.isLt; omega
  refine (pay_entry0 (V c main_v32) (V c main_arg0) (V c main_v12) (V c main_v13) (V c main_v17)
    (iblk0 V c 0 t) (iblk0 V c 1 t) (iblk0 V c 2 t) (iblk0 V c 4 t) (iblk0 V c 3 t) p q ⟨t.val * 5000 + p.val, hrow⟩
    (fun k => ?_) (fun k => ?_) (fun k => ?_) (fun k => ?_) ?_).trans ?_
  · show V c main_v32 (((cfg0.win 0).blk t).view.emb (ix2 p k)) = V c main_v32 (ix2 ⟨t.val * 5000 + p.val, hrow⟩ k)
    refine congrArg (V c main_v32) (funext fun d => Fin.ext ?_)
    match d with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg0 (((cfg0.win 1).blk t).view.emb (ix2 p k)) = V c main_arg0 (ix2 ⟨t.val * 5000 + p.val, hrow⟩ k)
    refine congrArg (V c main_arg0) (funext fun d => Fin.ext ?_)
    match d with
    | ⟨0, _⟩ => show win0_1.index t (0 : Fin 2) * 5000 + 1 * p.val = t.val * 5000 + p.val; omega
    | ⟨1, _⟩ => show win0_1.index t (1 : Fin 2) * 128 + 1 * k.val = k.val; omega
  · show V c main_v12 (((cfg0.win 2).blk t).view.emb (ix2 k q)) = V c main_v12 (ix2 k q)
    refine congrArg (V c main_v12) (funext fun d => Fin.ext ?_)
    match d with
    | ⟨0, _⟩ => show win0_2.index t (0 : Fin 2) * 128 + 1 * k.val = k.val; omega
    | ⟨1, _⟩ => show win0_2.index t (1 : Fin 2) * 128 + 1 * q.val = q.val; omega
  · show V c main_v13 (((cfg0.win 4).blk t).view.emb (ix2 k q)) = V c main_v13 (ix2 k q)
    refine congrArg (V c main_v13) (funext fun d => Fin.ext ?_)
    match d with
    | ⟨0, _⟩ => show win0_4.index t (0 : Fin 2) * 128 + 1 * k.val = k.val; omega
    | ⟨1, _⟩ => show win0_4.index t (1 : Fin 2) * 128 + 1 * q.val = q.val; omega
  · show V c main_v17 (((cfg0.win 3).blk t).view.emb (ix2 (0 : Fin 1) q)) = V c main_v17 (ix2 (0 : Fin 1) q)
    refine congrArg (V c main_v17) (funext fun d => Fin.ext ?_)
    match d with
    | ⟨0, _⟩ => show win0_3.index t (0 : Fin 2) * 1 + 1 * (0 : Fin 1).val = (0 : Fin 1).val; omega
    | ⟨1, _⟩ => show win0_3.index t (1 : Fin 2) * 128 + 1 * q.val = q.val; omega
  · show Cert.Sage.dense (V c main_v32) (V c main_arg0) (V c main_v12) (Cert.Sage.row128 (V c main_v17)) (V c main_v13) (ix2 ⟨t.val * 5000 + p.val, hrow⟩ q)
      = Cert.Sage.dense (V c main_v32) (V c main_arg0) (V c main_v12) (Cert.Sage.row128 (V c main_v17)) (V c main_v13) (((cfg0.win 5).blk t).view.emb (ix2 p q))
    refine congrArg _ (funext fun d => Fin.ext ?_)
    match d with
    | ⟨0, _⟩ => show t.val * 5000 + p.val = win0_5.index t (0 : Fin 2) * 5000 + 1 * p.val; omega
    | ⟨1, _⟩ => show q.val = win0_5.index t (1 : Fin 2) * 128 + 1 * q.val; omega

/-- An index of the output array is in point `t`'s block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v33).slice (win0_5.rect t)).set ↔ _
  rw [View.set_slice_whole, Rect.mem_set_unit]
  exact Iff.rfl

/-- EVERY INDEX IS COVERED: row `r` lies in the block of point `r / 5000`, and every point writes back. -/
theorem covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, -, -, -, -, -, -, o0, o1⟩ := index_maps0 ⟨(i 0).val / 5000, hq⟩
  have o0' : win0_5.index ⟨(i 0).val / 5000, hq⟩ (0 : Fin 2) = (i 0).val / 5000 := o0
  refine ⟨⟨(i 0).val / 5000, hq⟩, flush0_5 _, ?_⟩
  rw [mem_block0]
  intro a
  match a with
  | ⟨0, _⟩ => show win0_5.index ⟨(i 0).val / 5000, hq⟩ (0 : Fin 2) * 5000 ≤ (i 0).val ∧ (i 0).val < win0_5.index ⟨(i 0).val / 5000, hq⟩ (0 : Fin 2) * 5000 + 5000; omega
  | ⟨1, _⟩ => show win0_5.index ⟨(i 0).val / 5000, hq⟩ (1 : Fin 2) * 128 ≤ (i 1).val ∧ (i 1).val < win0_5.index ⟨(i 0).val / 5000, hq⟩ (1 : Fin 2) * 128 + 128; omega

theorem region0_out (c : Dev nD) :
    (dat0 (F := Ideal) V c).arrAt 5 cfg0.N
      = Cert.Sage.dense (V c main_v32) (V c main_arg0) (V c main_v12) (Cert.Sage.row128 (V c main_v17)) (V c main_v13) :=
  (dat0 (F := Ideal) V c).arrAt_eq_of_cover 5 _ (fun t _ => flushed0_eq V c t) covered0

end Cert.Sage.K

end
-- ==== Proof.KRegion1.lean ====
/-
  Each pallas_call's output array after its run, as one whole-array function of the arrays the call finds.
-/
import proofs.«152654_j74345883894183_1_alg».proof.Proof.Spec
import proofs.«152654_j74345883894183_1_alg».proof.Proof.KPay
import proofs.«152654_j74345883894183_1_alg».proof.Proof.Gen.KernelIdeal.Frame
import Idealize.ShloMosaic.Lib.Pipeline.Value

set_option maxRecDepth 16384

noncomputable section

namespace Cert.Sage.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-buffer rectangle, spelt as a constant function. -/
theorem zeros2_r1 : (![0, 0] : Fin 2 → Nat) = fun _ => 0 := funext fun a => by fin_cases a <;> rfl

/-- The second layer's block index maps over its 20 grid points: the hidden-feature rows, the aggregated rows and
    the output move with the point along the rows; both weight matrices and the bias row stay at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of the second layer's block payload is that layer's entry at array row `r`: the two row blocks hold
    row `r` of their arrays at block row `p`, the weight and bias blocks hold their arrays entire. -/
theorem pay_entry1 (a x : SNx128.Idx → EReal) (wl wr : SW.Idx → EReal) (b : S1x128.Idx → EReal)
    (v0 v3 : Vec Ideal S5000x128 .f32) (v6 v9 : Vec Ideal S128x128 .f32) (v15 : Vec Ideal S1x128 .f32)
    (p : Fin 5000) (q : Fin 128) (r : Fin 100000)
    (h0 : ∀ k : Fin 128, v0 (ix2 p k) = a (ix2 r k))
    (h3 : ∀ k : Fin 128, v3 (ix2 p k) = x (ix2 r k))
    (h6 : ∀ k : Fin 128, v6 (ix2 k q) = wl (ix2 k q))
    (h9 : ∀ k : Fin 128, v9 (ix2 k q) = wr (ix2 k q))
    (h15 : v15 (ix2 (0 : Fin 1) q) = b (ix2 (0 : Fin 1) q)) :
    k1_pay1 (F := Ideal) v0 v3 v6 v9 v15 (ix2 p q) = Cert.Sage.dense a x wl (Cert.Sage.row128 b) wr (ix2 r q) := by
  rw [k1_pay1_apply, Cert.Sage.dense_apply]
  unfold Cert.Sage.denseAt
  rw [Cert.Sage.row128_apply, h15]
  congr 2
  · congr 1
    · exact Finset.sum_congr rfl fun k _ => by rw [h0 k, h6 k]
    · exact Finset.sum_congr rfl fun k _ => by rw [h3 k, h9 k]

/-- WHAT POINT `t` OF THE SECOND CALL WRITES BACK is block `t` of the layer of the arrays that call finds. -/
theorem flushed1_eq (c : Dev nD) (t : Fin cfg1.N) :
    (dat1 (F := Ideal) V c).flushed 5 t
      = ((cfg1.win 5).blk t).view.read (Elt Ideal)
          (Cert.Sage.dense (V c main_v46) (V c main_v33) (V c main_v14) (Cert.Sage.row128 (V c main_v18)) (V c main_v15)) := by
  show (cfg1.win 5).cut (grid1.coords t) ((dat1 V c).after 5 t) = _
  rw [after1_5]
  unfold out1_5
  rw [View.canon_unit_zero zeros2_r1]
  simp only [View.ld_unit_zero (S := S5000x128) zeros2_r1, View.ld_unit_zero (S := S128x128) zeros2_r1, View.ld_unit_zero (S := S1x128) zeros2_r1]
  funext j
  obtain ⟨p, q, rfl⟩ : ∃ (p : Fin 5000) (q : Fin 128), j = ix2 p q := ⟨j 0, j 1, eq_ix2 j⟩
  obtain ⟨a0, a1, x0, x1, l0, l1, b0, b1, r0, r1, o0, o1⟩ := index_maps1 t
  have hN : cfg1.N = 20 := N_1
  have ht : t.val < 20 := hN ▸ t.isLt
  have hrow : t.val * 5000 + p.val < 100000 := by have := p.isLt; omega
  refine (pay_entry1 (V c main_v46) (V c main_v33) (V c main_v14) (V c main_v15) (V c main_v18)
    (iblk1 V c 0 t) (iblk1 V c 1 t) (iblk1 V c 2 t) (iblk1 V c 4 t) (iblk1 V c 3 t) p q ⟨t.val * 5000 + p.val, hrow⟩
    (fun k => ?_) (fun k => ?_) (fun k => ?_) (fun k => ?_) ?_).trans ?_
  · show V c main_v46 (((cfg1.win 0).blk t).view.emb (ix2 p k)) = V c main_v46 (ix2 ⟨t.val * 5000 + p.val, hrow⟩ k)
    refine congrArg (V c main_v46) (funext fun d => Fin.ext ?_)
    match d with
    | ⟨0, _⟩ => show win1_0.index t (0 : Fin 2) * 5000 + 1 * p.val = t.val * 5000 + p.val; omega
    | ⟨1, _⟩ => show win1_0.index t (1 : Fin 2) * 128 + 1 * k.val = k.val; omega
  · show V c main_v33 (((cfg1.win 1).blk t).view.emb (ix2 p k)) = V c main_v33 (ix2 ⟨t.val * 5000 + p.val, hrow⟩ k)
    refine congrArg (V c main_v33) (funext fun d => Fin.ext ?_)
    match d with
    | ⟨0, _⟩ => show win1_1.index t (0 : Fin 2) * 5000 + 1 * p.val = t.val * 5000 + p.val; omega
    | ⟨1, _⟩ => show win1_1.index t (1 : Fin 2) * 128 + 1 * k.val = k.val; omega
  · show V c main_v14 (((cfg1.win 2).blk t).view.emb (ix2 k q)) = V c main_v14 (ix2 k q)
    refine congrArg (V c main_v14) (funext fun d => Fin.ext ?_)
    match d with
    | ⟨0, _⟩ => show win1_2.index t (0 : Fin 2) * 128 + 1 * k.val = k.val; omega
    | ⟨1, _⟩ => show win1_2.index t (1 : Fin 2) * 128 + 1 * q.val = q.val; omega
  · show V c main_v15 (((cfg1.win 4).blk t).view.emb (ix2 k q)) = V c main_v15 (ix2 k q)
    refine congrArg (V c main_v15) (funext fun d => Fin.ext ?_)
    match d with
    | ⟨0, _⟩ => show win1_4.index t (0 : Fin 2) * 128 + 1 * k.val = k.val; omega
    | ⟨1, _⟩ => show win1_4.index t (1 : Fin 2) * 128 + 1 * q.val = q.val; omega
  · show V c main_v18 (((cfg1.win 3).blk t).view.emb (ix2 (0 : Fin 1) q)) = V c main_v18 (ix2 (0 : Fin 1) q)
    refine congrArg (V c main_v18) (funext fun d => Fin.ext ?_)
    match d with
    | ⟨0, _⟩ => show win1_3.index t (0 : Fin 2) * 1 + 1 * (0 : Fin 1).val = (0 : Fin 1).val; omega
    | ⟨1, _⟩ => show win1_3.index t (1 : Fin 2) * 128 + 1 * q.val = q.val; omega
  · show Cert.Sage.dense (V c main_v46) (V c main_v33) (V c main_v14) (Cert.Sage.row128 (V c main_v18)) (V c main_v15) (ix2 ⟨t.val * 5000 + p.val, hrow⟩ q)
      = Cert.Sage.dense (V c main_v46) (V c main_v33) (V c main_v14) (Cert.Sage.row128 (V c main_v18)) (V c main_v15) (((cfg1.win 5).blk t).view.emb (ix2 p q))
    refine congrArg _ (funext fun d => Fin.ext ?_)
    match d with
    | ⟨0, _⟩ => show t.val * 5000 + p.val = win1_5.index t (0 : Fin 2) * 5000 + 1 * p.val; omega
    | ⟨1, _⟩ => show q.val = win1_5.index t (1 : Fin 2) * 128 + 1 * q.val; omega

/-- An index of the second call's output array is in point `t`'s block iff each coordinate is in the block's range on
    its axis. -/
theorem mem_block1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v47).slice (win1_5.rect t)).set ↔ _
  rw [View.set_slice_whole, Rect.mem_set_unit]
  exact Iff.rfl

/-- EVERY INDEX IS COVERED: row `r` lies in the block of point `r / 5000`, and every point writes back. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hq : (i 0).val / 5000 < cfg1.N := by rw [hN]; omega
  obtain ⟨-, -, -, -, -, -, -, -, -, -, o0, o1⟩ := index_maps1 ⟨(i 0).val / 5000, hq⟩
  have o0' : win1_5.index ⟨(i 0).val / 5000, hq⟩ (0 : Fin 2) = (i 0).val / 5000 := o0
  refine ⟨⟨(i 0).val / 5000, hq⟩, flush1_5 _, ?_⟩
  rw [mem_block1]
  intro a
  match a with
  | ⟨0, _⟩ => show win1_5.index ⟨(i 0).val / 5000, hq⟩ (0 : Fin 2) * 5000 ≤ (i 0).val ∧ (i 0).val < win1_5.index ⟨(i 0).val / 5000, hq⟩ (0 : Fin 2) * 5000 + 5000; omega
  | ⟨1, _⟩ => show win1_5.index ⟨(i 0).val / 5000, hq⟩ (1 : Fin 2) * 128 ≤ (i 1).val ∧ (i 1).val < win1_5.index ⟨(i 0).val / 5000, hq⟩ (1 : Fin 2) * 128 + 128; omega

theorem region1_out (c : Dev nD) :
    (dat1 (F := Ideal) V c).arrAt 5 cfg1.N
      = Cert.Sage.dense (V c main_v46) (V c main_v33) (V c main_v14) (Cert.Sage.row128 (V c main_v18)) (V c main_v15) :=
  (dat1 (F := Ideal) V c).arrAt_eq_of_cover 5 _ (fun t _ => flushed1_eq V c t) covered1

end Cert.Sage.K

end
-- ==== Proof.KRegion2.lean ====
/-
  Each pallas_call's output array after its run, as one whole-array function of the arrays the call finds.

  The classifier call walks 20 grid points.  At point `t` it loads rows `5000·t … 5000·t + 4999` of the features,
  the whole [128, 40] weight matrix and the whole [1, 40] bias row, and stores the block
  `Σ_k h[r,k]·w[k,q] + b[q]` for those rows.  A block's coordinate in its array is always
  block index × block size + the coordinate inside the block; the 20 row blocks tile the [100000, 40] output
  (row `r` lies in the block of point `r / 5000`), so after the last point the output is the classifier of the
  three arrays at every index.
-/
import proofs.«152654_j74345883894183_1_alg».proof.Proof.Spec
import proofs.«152654_j74345883894183_1_alg».proof.Proof.KPay
import proofs.«152654_j74345883894183_1_alg».proof.Proof.Gen.KernelIdeal.Frame
import Idealize.ShloMosaic.Lib.Pipeline.Value

set_option maxRecDepth 16384

noncomputable section

namespace Cert.Sage.K

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The zero offsets of a whole-block rectangle, as a constant function. -/
theorem zeros2_r2 : (![0, 0] : Fin 2 → Nat) = fun _ => 0 := funext fun a => by fin_cases a <;> rfl

/-- The four index maps over the 20 grid points: the feature and output windows sit at block row `t`, block column 0;
    the weight and bias windows stay at block (0, 0). -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of the stored block is the classifier at the entry's place in the array, whenever the three loaded
    blocks are rows `n·5000 …` of the features, the whole weight matrix and the whole bias row. -/
theorem pay_entry2 (x0 : Vec Ideal S5000x128 .f32) (x1 : Vec Ideal S128x40 .f32) (x2 : Vec Ideal S1x40 .f32)
    (h : SNx128.Idx → EReal) (w : SWc.Idx → EReal) (b : (⟨2, ![1, 40]⟩ : Shape).Idx → EReal) (n : Nat)
    (p : Fin 5000) (q : Fin 40) (r : Fin 100000) (hr : r.val = n * 5000 + p.val)
    (h0 : ∀ k : Fin 128, x0 (ix2 p k) = h (ix2 r k))
    (h1 : ∀ k : Fin 128, x1 (ix2 k q) = w (ix2 k q))
    (h2 : x2 (ix2 (0 : Fin 1) q) = b (ix2 (0 : Fin 1) q)) :
    k2_pay1 (F := Ideal) x0 x1 x2 (ix2 p q) = Cert.Sage.cls h w (Cert.Sage.row40 b) (ix2 r q) := by
  rw [k2_pay1_apply, Cert.Sage.cls_apply]
  unfold Cert.Sage.clsAt
  rw [Cert.Sage.row40_apply, h2]
  congr 1
  exact Finset.sum_congr rfl fun k _ => by rw [h0 k, h1 k]

/-- The feature window's block at point `t` is rows `5000·t …` of the feature array. -/
theorem feat_block2 (c : Dev nD) (t : Fin cfg2.N) (x : S5000x128.Idx) (i : S100000x128.Idx)
    (hi0 : (i 0).val = t.val * 5000 + (x 0).val) (hi1 : (i 1).val = (x 1).val) :
    (iblk2 (F := Ideal) V c 0 t : Vec Ideal S5000x128 .f32) x = (V c main_v47 : S100000x128.Idx → EReal) i := by
  obtain ⟨e0, e1, -⟩ := index_maps2 t
  unfold iblk2
  rw [View.read_apply]
  show V c main_v47 _ = V c main_v47 _
  congr 1
  funext a; apply Fin.ext
  match a with
  | ⟨0, _⟩ => show win2_0.index t (0 : Fin 2) * 5000 + 1 * (x 0).val = (i 0).val; rw [e0, hi0]; omega
  | ⟨1, _⟩ => show win2_0.index t (1 : Fin 2) * 128 + 1 * (x 1).val = (i 1).val; rw [e1, hi1]; omega

/-- The weight window's block at every point is the whole weight matrix. -/
theorem weight_block2 (c : Dev nD) (t : Fin cfg2.N) (x : S128x40.Idx) :
    (iblk2 (F := Ideal) V c 1 t : Vec Ideal S128x40 .f32) x = (V c main_v16 : S128x40.Idx → EReal) x := by
  obtain ⟨-, -, e0, e1, -⟩ := index_maps2 t
  unfold iblk2
  rw [View.read_apply]
  show V c main_v16 _ = V c main_v16 _
  congr 1
  funext a; apply Fin.ext
  match a with
  | ⟨0, _⟩ => show win2_1.index t (0 : Fin 2) * 128 + 1 * (x 0).val = (x 0).val; rw [e0]; omega
  | ⟨1, _⟩ => show win2_1.index t (1 : Fin 2) * 40 + 1 * (x 1).val = (x 1).val; rw [e1]; omega

/-- The bias window's block at every point is the whole bias row. -/
theorem bias_block2 (c : Dev nD) (t : Fin cfg2.N) (x : S1x40.Idx) :
    (iblk2 (F := Ideal) V c 2 t : Vec Ideal S1x40 .f32) x = (V c main_v19 : S1x40.Idx → EReal) x := by
  obtain ⟨-, -, -, -, e0, e1, -⟩ := index_maps2 t
  unfold iblk2
  rw [View.read_apply]
  show V c main_v19 _ = V c main_v19 _
  congr 1
  funext a; apply Fin.ext
  match a with
  | ⟨0, _⟩ => show win2_2.index t (0 : Fin 2) * 1 + 1 * (x 0).val = (x 0).val; rw [e0]; omega
  | ⟨1, _⟩ => show win2_2.index t (1 : Fin 2) * 40 + 1 * (x 1).val = (x 1).val; rw [e1]; omega

/-- What point `t` writes back is block `t` of the classifier of the arrays the call finds. -/
theorem flushed2_eq (c : Dev nD) (t : Fin cfg2.N) :
    (dat2 (F := Ideal) V c).flushed 3 t
      = ((cfg2.win 3).blk t).view.read (Elt Ideal)
          (Cert.Sage.cls (V c main_v47) (V c main_v16) (Cert.Sage.row40 (V c main_v19))) := by
  show (cfg2.win 3).cut (grid2.coords t) ((dat2 V c).after 3 t) = _
  rw [after2_3]
  unfold out2_3
  rw [View.canon_unit_zero zeros2_r2]
  simp only [View.ld_unit_zero (S := S5000x128) zeros2_r2, View.ld_unit_zero (S := S128x40) zeros2_r2, View.ld_unit_zero (S := S1x40) zeros2_r2]
  obtain ⟨-, -, -, -, -, -, e0, e1⟩ := index_maps2 t
  have hN : t.val < 20 := Nat.lt_of_lt_of_eq t.isLt (N_2 : cfg2.N = 20)
  funext j
  obtain ⟨p, q, rfl⟩ : ∃ (p : Fin 5000) (q : Fin 40), (j : S5000x40.Idx) = ix2 p q := ⟨j 0, j 1, eq_ix2 j⟩
  show k2_pay1 (F := Ideal) (iblk2 V c 0 t) (iblk2 V c 1 t) (iblk2 V c 2 t) (ix2 p q)
    = Cert.Sage.cls (V c main_v47) (V c main_v16) (Cert.Sage.row40 (V c main_v19)) (((cfg2.win 3).blk t).view.emb (ix2 p q))
  have hr : t.val * 5000 + p.val < 100000 := by have := p.isLt; omega
  have hemb : ((cfg2.win 3).blk t).view.emb (ix2 p q) = (ix2 (⟨t.val * 5000 + p.val, hr⟩ : Fin 100000) q : S100000x40.Idx) := by
    funext a; apply Fin.ext
    match a with
    | ⟨0, _⟩ => show win2_3.index t (0 : Fin 2) * 5000 + 1 * p.val = t.val * 5000 + p.val; rw [e0]; omega
    | ⟨1, _⟩ => show win2_3.index t (1 : Fin 2) * 40 + 1 * q.val = q.val; rw [e1]; omega
  refine (pay_entry2 _ _ _ (V c main_v47) (V c main_v16) (V c main_v19) t.val p q ⟨t.val * 5000 + p.val, hr⟩ rfl
    (fun k => feat_block2 V c t (ix2 p k) (ix2 ⟨t.val * 5000 + p.val, hr⟩ k) rfl rfl)
    (fun k => weight_block2 V c t (ix2 k q))
    (bias_block2 V c t (ix2 (0 : Fin 1) q))).trans ?_
  exact congrArg _ hemb.symm

/-- An index of the array is in point `t`'s block iff each coordinate is in the block's range on its axis. -/
theorem mem_block2 (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v48).slice (win2_3.rect t)).set ↔ _
  rw [View.set_slice_whole, Rect.mem_set_unit]
  exact Iff.rfl

/-- Every row of the output is in the block of the point that holds its quotient by 5000. -/
theorem covered2 (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨-, -, -, -, -, -, e0, e1⟩ := index_maps2 t
  have ht : t.val = (i 0).val / 5000 := rfl
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 40 ≤ (i 1).val ∧ (i 1).val < win2_3.index t (1 : Fin 2) * 40 + 40; rw [e1]; omega

/-- The output array after the 20 points: every index is covered, so it is the classifier everywhere. -/
theorem region2_out (c : Dev nD) :
    (dat2 (F := Ideal) V c).arrAt 3 cfg2.N
      = Cert.Sage.cls (V c main_v47) (V c main_v16) (Cert.Sage.row40 (V c main_v19)) := by
  exact (dat2 (F := Ideal) V c).arrAt_eq_of_cover 3 _ (fun t _ => flushed2_eq V c t) covered2

end Cert.Sage.K

end
-- ==== Proof.RefRead.lean ====
/-
  The reference side: the host program's stages read one operation at a time, each SAGE layer and the
  classifier recognised as the specification's functions of the stages before them.
-/
import proofs.«152654_j74345883894183_1_alg».proof.Proof.Spec
import proofs.«152654_j74345883894183_1_alg».proof.Proof.Gen.ReferenceIdeal.Run
import proofs.«152654_j74345883894183_1_alg».proof.Proof.Gen.ReferenceIdeal.Read

noncomputable section

namespace Cert.Sage.R

open Idealize.ShloMosaic Idealize.ShloMosaic.ValueIdx Cert.ReferenceIdeal Cert.ReferenceIdeal.Read

abbrev AN := (⟨S100000x128, .f32⟩ : BufTy).Contents (Elt Ideal)
abbrev AE := (⟨S2x1600000, .i32⟩ : BufTy).Contents (Elt Ideal)
abbrev AW := (⟨S128x128, .f32⟩ : BufTy).Contents (Elt Ideal)
abbrev AB := (⟨S128, .f32⟩ : BufTy).Contents (Elt Ideal)
abbrev AWc := (⟨S40x128, .f32⟩ : BufTy).Contents (Elt Ideal)
abbrev ABc := (⟨S40, .f32⟩ : BufTy).Contents (Elt Ideal)

/-- The first layer's output is the specification's layer of the aggregated features, the features, the two
    transposed weights and the bias. -/
theorem h0_eq (x0 : AN) (x1 : AE) (x2 : AW) (x3 : AB) (x4 : AW) :
    val_main_v33 (F := Ideal) x0 x1 x2 x3 x4
      = Cert.Sage.dense (val_main_v24 (F := Ideal) x0 x1) x0 (val_main_v25 (F := Ideal) x2) x3 (val_main_v30 (F := Ideal) x4) := by
  -- At node r, feature q the stage is max ((Σ_k a[r,k]·wl[k,q] + b[q]) + Σ_k x[r,k]·wr[k,q]) 0: the bias row is
  -- read through its two broadcasts at column q, and both products contract the second axis of the left factor
  -- with the first axis of the right one.
  funext i
  obtain ⟨r, q, rfl⟩ : ∃ (r : Fin 100000) (q : Fin 128), i = ix2 r q := ⟨i 0, i 1, eq_ix2 i⟩
  rw [val_main_v33_apply, val_main_v32_apply, val_main_v29_apply, val_main_v26_apply, val_main_v28_apply,
    val_main_v27_apply, val_main_v31_apply, val_main_call0_v0_apply, val_main_call0_cst_apply, Cert.Sage.dense_apply]
  generalize val_main_v24 (F := Ideal) x0 x1 = A
  generalize val_main_v25 (F := Ideal) x2 = WL
  generalize val_main_v30 (F := Ideal) x4 = WR
  have el26 : ∀ k : Fin 128, lidx_main_v26 (ix2 r q) k = ix2 r k := fun k =>
    funext fun a => Fin.ext (by match a with | ⟨0, _⟩ => rfl | ⟨1, _⟩ => rfl)
  have er26 : ∀ k : Fin 128, ridx_main_v26 (ix2 r q) k = ix2 k q := fun k =>
    funext fun a => Fin.ext (by match a with | ⟨0, _⟩ => rfl | ⟨1, _⟩ => rfl)
  have el31 : ∀ k : Fin 128, lidx_main_v31 (ix2 r q) k = ix2 r k := fun k =>
    funext fun a => Fin.ext (by match a with | ⟨0, _⟩ => rfl | ⟨1, _⟩ => rfl)
  have er31 : ∀ k : Fin 128, ridx_main_v31 (ix2 r q) k = ix2 k q := fun k =>
    funext fun a => Fin.ext (by match a with | ⟨0, _⟩ => rfl | ⟨1, _⟩ => rfl)
  have eb : idx_main_v27 (idx_main_v28 (ix2 r q)) = ix1 q :=
    funext fun a => Fin.ext (by match a with | ⟨0, _⟩ => rfl)
  simp only [el26, er26, el31, er31, eb, Ideal.maximumf_def, Ideal.addf_def, Ideal.ofBits_def]
  -- (A + b) + X = (A + X) + b on the extended reals.
  rw [Cert.Sage.add3_comm]
  rfl

/-- The second layer's output is the same layer one step later: of the aggregated first-layer output, the
    first-layer output, the next two transposed weights and the next bias. -/
theorem h1_eq (x0 : AN) (x1 : AE) (x2 : AW) (x3 : AB) (x4 x5 : AW) (x6 : AB) (x7 : AW) :
    val_main_v55 (F := Ideal) x0 x1 x2 x3 x4 x5 x6 x7
      = Cert.Sage.dense (val_main_v46 (F := Ideal) x0 x1 x2 x3 x4) (val_main_v33 (F := Ideal) x0 x1 x2 x3 x4)
          (val_main_v47 (F := Ideal) x5) x6 (val_main_v52 (F := Ideal) x7) := by
  funext i
  obtain ⟨r, q, rfl⟩ : ∃ (r : Fin 100000) (q : Fin 128), i = ix2 r q := ⟨i 0, i 1, eq_ix2 i⟩
  rw [val_main_v55_apply, val_main_v54_apply, val_main_v51_apply, val_main_v48_apply, val_main_v50_apply,
    val_main_v49_apply, val_main_v53_apply, val_main_call1_v0_apply, val_main_call1_cst_apply, Cert.Sage.dense_apply]
  generalize val_main_v46 (F := Ideal) x0 x1 x2 x3 x4 = A
  generalize val_main_v33 (F := Ideal) x0 x1 x2 x3 x4 = H
  generalize val_main_v47 (F := Ideal) x5 = WL
  generalize val_main_v52 (F := Ideal) x7 = WR
  have el48 : ∀ k : Fin 128, lidx_main_v48 (ix2 r q) k = ix2 r k := fun k =>
    funext fun a => Fin.ext (by match a with | ⟨0, _⟩ => rfl | ⟨1, _⟩ => rfl)
  have er48 : ∀ k : Fin 128, ridx_main_v48 (ix2 r q) k = ix2 k q := fun k =>
    funext fun a => Fin.ext (by match a with | ⟨0, _⟩ => rfl | ⟨1, _⟩ => rfl)
  have el53 : ∀ k : Fin 128, lidx_main_v53 (ix2 r q) k = ix2 r k := fun k =>
    funext fun a => Fin.ext (by match a with | ⟨0, _⟩ => rfl | ⟨1, _⟩ => rfl)
  have er53 : ∀ k : Fin 128, ridx_main_v53 (ix2 r q) k = ix2 k q := fun k =>
    funext fun a => Fin.ext (by match a with | ⟨0, _⟩ => rfl | ⟨1, _⟩ => rfl)
  have eb : idx_main_v49 (idx_main_v50 (ix2 r q)) = ix1 q :=
    funext fun a => Fin.ext (by match a with | ⟨0, _⟩ => rfl)
  simp only [el48, er48, el53, er53, eb, Ideal.maximumf_def, Ideal.addf_def, Ideal.ofBits_def]
  -- (A + b) + X = (A + X) + b on the extended reals.
  rw [Cert.Sage.add3_comm]
  rfl

/-- The classifier's output is one matrix product of the second layer's output with the transposed class
    weights, plus the class bias read through its two broadcasts at column q. -/
theorem out_eq (x0 : AN) (x1 : AE) (x2 : AW) (x3 : AB) (x4 x5 : AW) (x6 : AB) (x7 : AW) (x8 : AWc) (x9 : ABc) :
    val_main_v60 (F := Ideal) x0 x1 x2 x3 x4 x5 x6 x7 x8 x9
      = Cert.Sage.cls (val_main_v55 (F := Ideal) x0 x1 x2 x3 x4 x5 x6 x7) (val_main_v56 (F := Ideal) x8) x9 := by
  funext i
  obtain ⟨r, q, rfl⟩ : ∃ (r : Fin 100000) (q : Fin 40), i = ix2 r q := ⟨i 0, i 1, eq_ix2 i⟩
  rw [val_main_v60_apply, val_main_v57_apply, val_main_v59_apply, val_main_v58_apply, Cert.Sage.cls_apply]
  generalize val_main_v55 (F := Ideal) x0 x1 x2 x3 x4 x5 x6 x7 = H
  generalize val_main_v56 (F := Ideal) x8 = W
  have el57 : ∀ k : Fin 128, lidx_main_v57 (ix2 r q) k = ix2 r k := fun k =>
    funext fun a => Fin.ext (by match a with | ⟨0, _⟩ => rfl | ⟨1, _⟩ => rfl)
  have er57 : ∀ k : Fin 128, ridx_main_v57 (ix2 r q) k = ix2 k q := fun k =>
    funext fun a => Fin.ext (by match a with | ⟨0, _⟩ => rfl | ⟨1, _⟩ => rfl)
  have eb : idx_main_v58 (idx_main_v59 (ix2 r q)) = ix1 q :=
    funext fun a => Fin.ext (by match a with | ⟨0, _⟩ => rfl)
  simp only [el57, er57, eb, Ideal.addf_def]
  rfl

end Cert.Sage.R

end
-- ==== Proof.KAssemble.lean ====
/-
  The kernel program's result as the reference's final stage.  Walking back from the classifier's output array:
  the third pallas_call computes the classifier of the second call's output; the second call computes a SAGE layer
  of the aggregation (a host stretch) of the first call's output; the first call computes a SAGE layer of the
  aggregation of the node features.  Each array found on the way is the reference stage of the same rank, so the
  whole composite is the reference's last stage of the launch arguments.
-/
import proofs.«152654_j74345883894183_1_alg».proof.Proof.Spec
import proofs.«152654_j74345883894183_1_alg».proof.Proof.KHost
import proofs.«152654_j74345883894183_1_alg».proof.Proof.KRegion0
import proofs.«152654_j74345883894183_1_alg».proof.Proof.KRegion1
import proofs.«152654_j74345883894183_1_alg».proof.Proof.KRegion2
import proofs.«152654_j74345883894183_1_alg».proof.Proof.RefRead

set_option maxRecDepth 16384

noncomputable section

namespace Cert.Sage.K

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen
open Cert.ReferenceIdeal.Read (val_main_v1 val_main_v3 val_main_v11 val_main_v24 val_main_v25 val_main_v30 val_main_v33
  val_main_v46 val_main_v47 val_main_v52 val_main_v55 val_main_v56 val_main_v60)

variable (m : (ℓ : Loc nD τ sig) → Buf (Elt Ideal) ℓ) (ρ : Dev nD → PrngReg) (c : Dev nD)

/-! ## The first pallas_call -/

/-- Its output array is the reference's first hidden layer. -/
theorem w2_v33 : (W2 m ρ c (Proc.devRef .tc main_v33) : S100000x128.Idx → EReal)
    = val_main_v33 (F := Ideal) (a0 m c) (a1 m c) (a2 m c) (a3 m c) (a4 m c) := by
  refine (W2_arr m ρ c 5).trans ?_
  rw [region0_out (V1 m ρ) c, s0_v32 m ρ c, s0_arg0 m ρ c, s0_v12 m ρ c, s0_v17 m ρ c, s0_v13 m ρ c]
  exact (Cert.Sage.R.h0_eq _ _ _ _ _).symm

/-! ## Between the first and the second pallas_call -/

/-- The second aggregation: the same host chain applied to the first hidden layer. -/
theorem s1_v46 : (V3 m ρ c main_v46 : S100000x128.Idx → EReal)
    = val_main_v46 (F := Ideal) (a0 m c) (a1 m c) (a2 m c) (a3 m c) (a4 m c) := by
  show StableHlo.after hostOps1 (W2 m ρ c) (Proc.devRef .tc main_v46) = _
  after_results_simp
  rw [w2_v33 m ρ c, w2_v1 m ρ c, w2_v3 m ρ c, w2_v11 m ρ c]
  rfl

theorem s1_v33 : (V3 m ρ c main_v33 : S100000x128.Idx → EReal)
    = val_main_v33 (F := Ideal) (a0 m c) (a1 m c) (a2 m c) (a3 m c) (a4 m c) := by
  show StableHlo.after hostOps1 (W2 m ρ c) (Proc.devRef .tc main_v33) = _
  after_results_simp
  exact w2_v33 m ρ c

theorem s1_v14 : (V3 m ρ c main_v14 : S128x128.Idx → EReal) = val_main_v47 (F := Ideal) (a5 m c) := by
  show StableHlo.after hostOps1 (W2 m ρ c) (Proc.devRef .tc main_v14) = _
  after_results_simp
  exact w2_v14 m ρ c

theorem s1_v15 : (V3 m ρ c main_v15 : S128x128.Idx → EReal) = val_main_v52 (F := Ideal) (a7 m c) := by
  show StableHlo.after hostOps1 (W2 m ρ c) (Proc.devRef .tc main_v15) = _
  after_results_simp
  exact w2_v15 m ρ c

theorem s1_v18 : Cert.Sage.row128 (V3 m ρ c main_v18) = a6 m c := by
  have e : (V3 m ρ c main_v18 : S1x128.Idx → EReal) = shapeCast S1x128 (a6 m c) shapeCasts_S128_S1x128 := by
    show StableHlo.after hostOps1 (W2 m ρ c) (Proc.devRef .tc main_v18) = _
    after_results_simp
    exact w2_v18 m ρ c
  rw [e]; exact row128_reshape _

theorem s1_v16 : (W3 m ρ c (Proc.devRef .tc main_v16) : S128x40.Idx → EReal) = val_main_v56 (F := Ideal) (a8 m c) := by
  show StableHlo.after hostOps1 (W2 m ρ c) (Proc.devRef .tc main_v16) = _
  after_results_simp
  exact w2_v16 m ρ c

theorem s1_v19 : (W3 m ρ c (Proc.devRef .tc main_v19) : S1x40.Idx → EReal) = shapeCast S1x40 (a9 m c) shapeCasts_S40_S1x40 := by
  show StableHlo.after hostOps1 (W2 m ρ c) (Proc.devRef .tc main_v19) = _
  after_results_simp
  exact w2_v19 m ρ c

/-! ## The second pallas_call, and what the third finds -/

/-- Its output array is the reference's second hidden layer. -/
theorem w4_v47 : (V4 m ρ c main_v47 : S100000x128.Idx → EReal)
    = val_main_v55 (F := Ideal) (a0 m c) (a1 m c) (a2 m c) (a3 m c) (a4 m c) (a5 m c) (a6 m c) (a7 m c) := by
  refine (W4_arr m ρ c 5).trans ?_
  rw [region1_out (V3 m ρ) c, s1_v46 m ρ c, s1_v33 m ρ c, s1_v14 m ρ c, s1_v18 m ρ c, s1_v15 m ρ c]
  exact (Cert.Sage.R.h1_eq _ _ _ _ _ _ _ _).symm

theorem w4_v16 : (V4 m ρ c main_v16 : S128x40.Idx → EReal) = val_main_v56 (F := Ideal) (a8 m c) :=
  (W4_of_ne m ρ c main_v16 (by decide)).trans (s1_v16 m ρ c)

theorem w4_v19 : Cert.Sage.row40 (V4 m ρ c main_v19) = a9 m c := by
  have e : (V4 m ρ c main_v19 : S1x40.Idx → EReal) = shapeCast S1x40 (a9 m c) shapeCasts_S40_S1x40 :=
    (W4_of_ne m ρ c main_v19 (by decide)).trans (s1_v19 m ρ c)
  rw [e]; exact row40_reshape _

/-! ## The third pallas_call: the result -/

/-- The classifier's output array after the run is the reference's final stage of the launch arguments. -/
theorem kernel_out : (dat2 (F := Ideal) (V4 m ρ) c).arrAt 3 cfg2.N
    = val_main_v60 (F := Ideal) (a0 m c) (a1 m c) (a2 m c) (a3 m c) (a4 m c) (a5 m c) (a6 m c) (a7 m c) (a8 m c) (a9 m c) := by
  rw [region2_out (V4 m ρ) c, w4_v47 m ρ c, w4_v16 m ρ c, w4_v19 m ρ c]
  exact (Cert.Sage.R.out_eq _ _ _ _ _ _ _ _ _ _).symm

end Cert.Sage.K

end
-- ==== Proof.lean ====
/-
  Two-layer GraphSAGE with a linear classifier, tiled over the node axis in three pallas_calls, against its jnp
  reference: equivalence over the extended reals.

  Both programs aggregate neighbour features the same way on the host (gather the source rows, scatter-add them
  into the target rows, scale by the clamped reciprocal degree), so that chain is carried as one stage and never
  opened.  Each SAGE layer is max(a·Wlᵀ + x·Wrᵀ + b, 0) row by row; the kernel computes it block of 5000 rows by
  block with the bias added last, the reference on the whole array with the bias added between the two products.
  Addition on the extended reals is commutative and associative without finiteness, so the two agree entry by
  entry, and the precondition is never opened.  The classifier is one matrix product plus a bias row on both sides.

  Frames: the kernel programs' are the generated frame certificates; the reference's is its generated run with the
  result dropped.  The idealization rewrote nothing, so `preserves` is `True`.
-/
import proofs.«152654_j74345883894183_1_alg».proof.Defs
import proofs.«152654_j74345883894183_1_alg».proof.Proof.Gen.Kernel
import proofs.«152654_j74345883894183_1_alg».proof.Proof.Gen.Kernel.Frame
import proofs.«152654_j74345883894183_1_alg».proof.Proof.Gen.KernelIdeal
import proofs.«152654_j74345883894183_1_alg».proof.Proof.Gen.KernelIdeal.Frame
import proofs.«152654_j74345883894183_1_alg».proof.Proof.Gen.ReferenceIdeal
import proofs.«152654_j74345883894183_1_alg».proof.Proof.Gen.ReferenceIdeal.Run
import proofs.«152654_j74345883894183_1_alg».proof.Proof.Gen.ReferenceIdeal.Read
import proofs.«152654_j74345883894183_1_alg».proof.Proof.Gen.Pre_finite_inputs
import proofs.«152654_j74345883894183_1_alg».proof.Proof.KRun
import proofs.«152654_j74345883894183_1_alg».proof.Proof.KAssemble
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's run ends with the classifier's array at the reference's final stage of the launch arguments; the
    reference's run ends at that stage of its own arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run Cert.KernelIdeal.defs _ _).mono
      (fun r h c => ⟨(h c).1.trans (Cert.Sage.K.kernel_out m ρ c), (h c).2⟩) (Cert.KernelIdeal.Gen.run_out (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v60_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
